-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x300 : Shape := ⟨2, ![128, 300]⟩
abbrev S300 : Shape := ⟨1, ![300]⟩
abbrev S300x300 : Shape := ⟨2, ![300, 300]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x300 : S_.BroadcastsInDim S128x300 (![] : Fin 0 → Fin S128x300.rank)
  reducesTo_S128x300_S_d0_1 : S128x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_

variable [Facts]

def fn_part1 {F : FTy → Type} [FloatOps F] (main_arg5 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x300 .f32) (main_arg3 : FVec F S300 .f32) (main_arg4 : FVec F S300x300 .f32) (main_arg5 : FVec F S300 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x300 .f32 := Host.absf main_arg2
  let main_cst_0 : FVec F S_ .f32 := constant S_ .f32 0x7F800000#32
  let main_v5 : FVec F S128x300 .f32 := broadcastInDim S128x300 ![] bcast_S_S128x300 main_cst_0
  let main_v6 : IVec S128x300 1 := cmpf .olt main_v4 main_v5
  let main_c_1 : IVec S_ 1 := constantI S_ 1 1#1
  let main_v7 : IVec S_ 1 := (fun x v => Host.reduce IntOp.andi x v reducesTo_S128x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x300 .f32 := Host.absf main_arg4
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x300 : Shape := ⟨2, ![128, 300]⟩
abbrev S300 : Shape := ⟨1, ![300]⟩
abbrev S300x300 : Shape := ⟨2, ![300, 300]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x300 : Shape := ⟨2, ![50000, 300]⟩
abbrev S2000x128 : Shape := ⟨2, ![2000, 128]⟩
abbrev S2000x300 : Shape := ⟨2, ![2000, 300]⟩
abbrev S800000x300 : Shape := ⟨2, ![800000, 300]⟩
abbrev S1x300 : Shape := ⟨2, ![1, 300]⟩
abbrev S2000x1 : Shape := ⟨2, ![2000, 1]⟩

abbrev nBuf : Space → Nat
  | .hbm => 78
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000x300, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x300, .f32⟩
  | .hbm, ⟨52, _⟩ => ⟨S800000x300, .f32⟩
  | .hbm, ⟨53, _⟩ => ⟨S800000x300, .f32⟩
  | .hbm, ⟨54, _⟩ => ⟨S_, .f32⟩
  | .hbm, ⟨55, _⟩ => ⟨S50000x300, .f32⟩
  | .hbm, ⟨56, _⟩ => ⟨S800000x1, .i32⟩
  | .hbm, ⟨57, _⟩ => ⟨S50000x300, .f32⟩
  | .hbm, ⟨58, _⟩ => ⟨S1x300, .f32⟩
  | .hbm, ⟨59, _⟩ => ⟨S50000x300, .f32⟩
  | .hbm, ⟨60, _⟩ => ⟨S50000x300, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x300, .f32⟩
  | .hbm, ⟨70, _⟩ => ⟨S800000x300, .f32⟩
  | .hbm, ⟨71, _⟩ => ⟨S800000x300, .f32⟩
  | .hbm, ⟨72, _⟩ => ⟨S_, .f32⟩
  | .hbm, ⟨73, _⟩ => ⟨S50000x300, .f32⟩
  | .hbm, ⟨74, _⟩ => ⟨S800000x1, .i32⟩
  | .hbm, ⟨75, _⟩ => ⟨S50000x300, .f32⟩
  | .hbm, ⟨76, _⟩ => ⟨S1x300, .f32⟩
  | .hbm, ⟨77, _⟩ => ⟨S50000x300, .f32⟩
  | .local _ .vmem, ⟨0, _⟩ => ⟨S2000x128, .f32⟩
  | .local _ .vmem, ⟨1, _⟩ => ⟨S2000x128, .f32⟩
  | .local _ .vmem, ⟨2, _⟩ => ⟨S128x300, .f32⟩
  | .local _ .vmem, ⟨3, _⟩ => ⟨S2000x300, .f32⟩
  | .local _ .vmem, ⟨4, _⟩ => ⟨S2000x300, .f32⟩
  | .local _ .vmem, ⟨5, _⟩ => ⟨S2000x300, .f32⟩
  | .local _ .vmem, ⟨6, _⟩ => ⟨S2000x300, .f32⟩
  | .local _ .vmem, ⟨7, _⟩ => ⟨S2000x1, .f32⟩
  | .local _ .vmem, ⟨8, _⟩ => ⟨S2000x1, .f32⟩
  | .local _ .vmem, ⟨9, _⟩ => ⟨S2000x300, .f32⟩
  | .local _ .vmem, ⟨10, _⟩ => ⟨S2000x300, .f32⟩
  | .local _ .vmem, ⟨11, _⟩ => ⟨S1x300, .f32⟩
  | .local _ .vmem, ⟨12, _⟩ => ⟨S2000x300, .f32⟩
  | .local _ .vmem, ⟨13, _⟩ => ⟨S2000x300, .f32⟩
  | .local _ .vmem, ⟨14, _⟩ => ⟨S2000x300, .f32⟩
  | .local _ .vmem, ⟨15, _⟩ => ⟨S2000x300, .f32⟩
  | .local _ .vmem, ⟨16, _⟩ => ⟨S300x300, .f32⟩
  | .local _ .vmem, ⟨17, _⟩ => ⟨S2000x300, .f32⟩
  | .local _ .vmem, ⟨18, _⟩ => ⟨S2000x300, .f32⟩
  | .local _ .vmem, ⟨19, _⟩ => ⟨S2000x300, .f32⟩
  | .local _ .vmem, ⟨20, _⟩ => ⟨S2000x300, .f32⟩
  | .local _ .vmem, ⟨21, _⟩ => ⟨S2000x1, .f32⟩
  | .local _ .vmem, ⟨22, _⟩ => ⟨S2000x1, .f32⟩
  | .local _ .vmem, ⟨23, _⟩ => ⟨S2000x300, .f32⟩
  | .local _ .vmem, ⟨24, _⟩ => ⟨S2000x300, .f32⟩
  | .local _ .vmem, ⟨25, _⟩ => ⟨S1x300, .f32⟩
  | .local _ .vmem, ⟨26, _⟩ => ⟨S2000x300, .f32⟩
  | .local _ .vmem, ⟨27, _⟩ => ⟨S2000x300, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x300 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x300_S128x300_0_0 : ∀ a, (![0, 0] : Fin 2 → Nat) a + S128x300.size a ≤ S128x300.size a
  h_S128x300 : 0 < S128x300.numel
  inb_S2000x300_S2000x300_0_0 : ∀ a, (![0, 0] : Fin 2 → Nat) a + S2000x300.size a ≤ S2000x300.size a
  h_S2000x300 : 0 < S2000x300.numel
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  shapeCasts_S300_S1x300 : S300.ShapeCasts S1x300
  shapeCasts_S2000x300_S2000x300 : S2000x300.ShapeCasts S2000x300
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S2000x1_S2000x300 : S2000x1.Broadcasts S2000x300
  broadcasts_S1x300_S2000x300 : S1x300.Broadcasts S2000x300
  inb_S300x300_S300x300_0_0 : ∀ a, (![0, 0] : Fin 2 → Nat) a + S300x300.size a ≤ S300x300.size a
  h_S300x300 : 0 < S300x300.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x300_S2000x300_1_0_0_1_n_n_wf : DotDims.WF S2000x128 S128x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x300_S300x300_S2000x300_1_0_0_1_n_n_wf : DotDims.WF S2000x300 S300x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x300.size a ≤ S128x300.size a
  hwx0_1 : ∀ i : grid0.Coords, EltTy.bits .f32 = 32 ∨ (Rect.block (s := S128x300) S128x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x300.size a ≤ S50000x300.size a
  hwx0_2 : ∀ i : grid0.Coords, EltTy.bits .f32 = 32 ∨ (Rect.block (s := S50000x300) S2000x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x300.size a ≤ S50000x300.size a
  hwx1_2 : ∀ i : grid1.Coords, EltTy.bits .f32 = 32 ∨ (Rect.block (s := S50000x300) S2000x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x300.size a ≤ S50000x300.size a
  hwx1_4 : ∀ i : grid1.Coords, EltTy.bits .f32 = 32 ∨ (Rect.block (s := S50000x300) S2000x300.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S50000x300.size a
  hwx2_0 : ∀ i : grid2.Coords, EltTy.bits .f32 = 32 ∨ (Rect.block (s := S50000x300) S2000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x300.size a ≤ S50000x300.size a
  hwx2_2 : ∀ i : grid2.Coords, EltTy.bits .f32 = 32 ∨ (Rect.block (s := S50000x300) S2000x300.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S50000x300.size a
  hwx3_0 : ∀ i : grid3.Coords, EltTy.bits .f32 = 32 ∨ (Rect.block (s := S50000x300) S2000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x300.size a ≤ S50000x300.size a
  hwx3_2 : ∀ i : grid3.Coords, EltTy.bits .f32 = 32 ∨ (Rect.block (s := S50000x300) S2000x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x300.size a ≤ S50000x300.size a
  hwx3_4 : ∀ i : grid3.Coords, EltTy.bits .f32 = 32 ∨ (Rect.block (s := S50000x300) S2000x300.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x300_S2000x300_1_0_0_1_n_n : DotDims S2000x128 S128x300 S2000x300 where
  lhsContracting := [1]
  rhsContracting := [0]
  lhsNonContracting := [0]
  rhsNonContracting := [1]
  lhsBatch := []
  rhsBatch := []
  wf := dot_S2000x128_S128x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x300.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x300.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S2000x300.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S2000x300.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x300 : Shape := ⟨2, ![128, 300]⟩
abbrev S300 : Shape := ⟨1, ![300]⟩
abbrev S300x300 : Shape := ⟨2, ![300, 300]⟩
abbrev S1x800000 : Shape := ⟨2, ![1, 800000]⟩
abbrev S800000 : Shape := ⟨1, ![800000]⟩
abbrev S50000x300 : Shape := ⟨2, ![50000, 300]⟩
abbrev S_ : Shape := ⟨0, ![]⟩
abbrev S50000 : Shape := ⟨1, ![50000]⟩
abbrev S800000x1 : Shape := ⟨2, ![800000, 1]⟩
abbrev S800000x300 : Shape := ⟨2, ![800000, 300]⟩
abbrev S50000x1 : Shape := ⟨2, ![50000, 1]⟩
abbrev S1x300 : Shape := ⟨2, ![1, 300]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x300, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x300, .f32⟩
  | .hbm, ⟨49, _⟩ => ⟨S800000x1, .f32⟩
  | .hbm, ⟨50, _⟩ => ⟨S800000x300, .f32⟩
  | .hbm, ⟨51, _⟩ => ⟨S800000x300, .f32⟩
  | .hbm, ⟨52, _⟩ => ⟨S_, .f32⟩
  | .hbm, ⟨53, _⟩ => ⟨S50000x300, .f32⟩
  | .hbm, ⟨54, _⟩ => ⟨S800000x1, .i32⟩
  | .hbm, ⟨55, _⟩ => ⟨S50000x300, .f32⟩
  | .hbm, ⟨56, _⟩ => ⟨S50000, .f32⟩
  | .hbm, ⟨57, _⟩ => ⟨S50000x1, .f32⟩
  | .hbm, ⟨58, _⟩ => ⟨S50000x300, .f32⟩
  | .hbm, ⟨59, _⟩ => ⟨S50000x300, .f32⟩
  | .hbm, ⟨60, _⟩ => ⟨S50000x300, .f32⟩
  | .hbm, ⟨61, _⟩ => ⟨S1x300, .f32⟩
  | .hbm, ⟨62, _⟩ => ⟨S50000x300, .f32⟩
  | .hbm, ⟨63, _⟩ => ⟨S50000x300, .f32⟩
  | .hbm, ⟨64, _⟩ => ⟨S50000x300, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000, .f32⟩
  | .hbm, ⟨93, _⟩ => ⟨S800000, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x300, .f32⟩
  | .hbm, ⟨103, _⟩ => ⟨S800000x1, .f32⟩
  | .hbm, ⟨104, _⟩ => ⟨S800000x300, .f32⟩
  | .hbm, ⟨105, _⟩ => ⟨S800000x300, .f32⟩
  | .hbm, ⟨106, _⟩ => ⟨S_, .f32⟩
  | .hbm, ⟨107, _⟩ => ⟨S50000x300, .f32⟩
  | .hbm, ⟨108, _⟩ => ⟨S800000x1, .i32⟩
  | .hbm, ⟨109, _⟩ => ⟨S50000x300, .f32⟩
  | .hbm, ⟨110, _⟩ => ⟨S50000, .f32⟩
  | .hbm, ⟨111, _⟩ => ⟨S50000x1, .f32⟩
  | .hbm, ⟨112, _⟩ => ⟨S50000x300, .f32⟩
  | .hbm, ⟨113, _⟩ => ⟨S50000x300, .f32⟩
  | .hbm, ⟨114, _⟩ => ⟨S50000x300, .f32⟩
  | .hbm, ⟨115, _⟩ => ⟨S1x300, .f32⟩
  | .hbm, ⟨116, _⟩ => ⟨S50000x300, .f32⟩
  | .hbm, ⟨117, _⟩ => ⟨S50000x300, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  bcast_S50000_S50000x1_0 : S50000.BroadcastsInDim S50000x1 (![0] : Fin 1 → Fin S50000x1.rank)
  bcast_S50000x1_S50000x300_0_1 : S50000x1.BroadcastsInDim S50000x300 (![0, 1] : Fin 2 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  dot_S50000x128_S128x300_S50000x300_1_0_0_1_n_n_wf : DotDims.WF S50000x128 S128x300 S50000x300 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x300_S300x300_S50000x300_1_0_0_1_n_n_wf : DotDims.WF S50000x300 S300x300 S50000x300 [1] [0] [0] [1] [] []

variable [Facts₀]

def dot_S50000x128_S128x300_S50000x300_1_0_0_1_n_n : DotDims S50000x128 S128x300 S50000x300 where
  lhsContracting := [1]
  rhsContracting := [0]
  lhsNonContracting := [0]
  rhsNonContracting := [1]
  lhsBatch := []
  rhsBatch := []
  wf := dot_S50000x128_S128x300_S50000x300_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf

class Facts : Prop extends Facts₀ where

variable [Facts]
-- ==== Proof.Spec.lean ====
/-
  The two whole-array functions a layer of the graph convolution is made of, on the extended reals.

  `prod x w` is the matrix product of a [50000, K] array by a [K, 300] array: entry (i, j) is the sum over k of
  x (i, k) · w (k, j). `combine h d a b` is, entry by entry, h (i, j) · d (i, 0) + a (i, j) + b (0, j): the projected
  features scaled row by row by the column d, plus the aggregated neighbours a, plus the bias row b.
-/
import Idealize.ShloMosaic.Lib.ValueIdx
import Idealize.ShloMosaic.PureOps.Ideal.Laws

noncomputable section

namespace Cert.Spec

open Idealize.ShloMosaic Idealize.ShloMosaic.ValueIdx

/-- The product of a [50000, K] array by a [K, 300] array. -/
def prod {K : ℕ} (x : FVec Ideal ⟨2, ![50000, K]⟩ .f32) (w : FVec Ideal ⟨2, ![K, 300]⟩ .f32) :
    FVec Ideal ⟨2, ![50000, 300]⟩ .f32 :=
  Host.dotGeneral (DotDims.plain 50000 K 300) none x w

/-- Entry (i, j) of the layer's output: h (i, j) · d (i, 0) + a (i, j) + b (0, j). -/
def combine (h : FVec Ideal ⟨2, ![50000, 300]⟩ .f32) (d : FVec Ideal ⟨2, ![50000, 1]⟩ .f32)
    (a : FVec Ideal ⟨2, ![50000, 300]⟩ .f32) (b : FVec Ideal ⟨2, ![1, 300]⟩ .f32) : FVec Ideal ⟨2, ![50000, 300]⟩ .f32 :=
  fun i => h i * d (ix2 (i 0 : Fin 50000) (0 : Fin 1)) + a i + b (ix2 (0 : Fin 1) (i 1 : Fin 300))

end Cert.Spec

end
-- ==== Proof.KernelTerm.lean ====
/-
  What the idealized kernel's program computes, as functions of the argument arrays on the extended reals.

  From the edge list e : [2, 800000] come the source and destination vectors (its two rows). The degree of a node is one
  plus the number of edges that end at it, dinv its inverse square root; the column d2col holds dinv², and the
  column normCol holds, for each edge, dinv at its source times dinv at its destination (a negative index counted from
  the end, as the gather does). For node features h, agg sums over the edges ending at a node the source's row of h
  scaled by the edge's entry of normCol. One layer is combine h d2col (agg h) (the bias as a row), and the program
  is two layers, each after a matrix product by its weight.
-/
import proofs.«154621_j17703855194320_1_alg».proof.Proof.Gen.KernelIdeal
import proofs.«154621_j17703855194320_1_alg».proof.Proof.Spec

noncomputable section

namespace Cert.KernelIdeal.Term

open Idealize.ShloMosaic Idealize.ShloMosaic.TcCoe Cert.KernelIdeal
open Cert.KernelIdeal.Facts₀ Cert.KernelIdeal.Facts

/-- The edges' source nodes: row 0 of the edge list. -/
def src (e : IVec S2x800000 32) : IVec S800000 32 :=
  shapeCast S800000 (extractStridedSlice S1x800000 ![0, 0] e slices_S2x800000_S1x800000_0_0) shapeCasts_S1x800000_S800000

/-- The edges' destination nodes: row 1 of the edge list. -/
def dst (e : IVec S2x800000 32) : IVec S800000 32 :=
  shapeCast S800000 (extractStridedSlice S1x800000 ![1, 0] e slices_S2x800000_S1x800000_1_0) shapeCasts_S1x800000_S800000

/-- A negative index counts from the end: 50000 is added to it. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index vector as a column of one-entry index rows. -/
def col (v : IVec S800000 32) : IVec S800000x1 32 := broadcastInDim S800000x1 ![0] bcast_S800000_S800000x1_0 v

/-- The inverse square root of each node's degree (edges ending at it, plus one). -/
def dinv (e : IVec S2x800000 32) : FVec Ideal S50000 .f32 :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32)) (col (dst e))
      (broadcastInDim S800000 ![] bcast_S_S800000 (constant (F := Ideal) S_ .f32 0x3F800000#32)))
    (broadcastInDim S50000 ![] bcast_S_S50000 (constant (F := Ideal) S_ .f32 0x3F800000#32)))

/-- dinv² as a column. -/
def d2col (e : IVec S2x800000 32) : FVec Ideal S50000x1 .f32 :=
  shapeCast S50000x1 (mulf (F := Ideal) (dinv e) (dinv e)) shapeCasts_S50000_S50000x1

/-- Per edge, dinv at the source times dinv at the destination. -/
def norm (e : IVec S2x800000 32) : FVec Ideal S800000 .f32 :=
  mulf (F := Ideal) (Host.gather gather_S50000_S800000x1_S800000_n_0_n_n_0_1_1 (dinv e) (col (wrap (src e))))
    (Host.gather gather_S50000_S800000x1_S800000_n_0_n_n_0_1_1 (dinv e) (col (wrap (dst e))))

/-- The same as a column. -/
def normCol (e : IVec S2x800000 32) : FVec Ideal S800000x1 .f32 :=
  shapeCast S800000x1 (norm e) shapeCasts_S800000_S800000x1

/-- The neighbours' rows of `h`, each scaled by its edge's entry of `nrm`, summed into the edge's destination. -/
def agg (e : IVec S2x800000 32) (nrm : FVec Ideal S800000x300 .f32) (h : FVec Ideal S50000x300 .f32) : FVec Ideal S50000x300 .f32 :=
  Host.scatterAdd (F := Ideal) scatter_S50000x300_S800000x1_S800000x300_1_0_0_1
    (broadcastInDim S50000x300 ![] bcast_S_S50000x300 (constant (F := Ideal) S_ .f32 0x00000000#32)) (col (dst e))
    (mulf (F := Ideal) (Host.gather gather_S50000x300_S800000x1_S800000x300_1_0_n_n_0_1_1300 h (col (wrap (src e)))) nrm)

/-- The edge weights laid along the 300 columns. -/
def normWide (e : IVec S2x800000 32) : FVec Ideal S800000x300 .f32 :=
  broadcastInDim S800000x300 ![0, 1] bcast_S800000x1_S800000x300_0_1 (normCol e)

/-- The bias as a row. -/
def biasRow (b : FVec Ideal S300 .f32) : FVec Ideal S1x300 .f32 := shapeCast S1x300 b shapeCasts_S300_S1x300

/-- One layer on projected features `h`. -/
def layer (e : IVec S2x800000 32) (h : FVec Ideal S50000x300 .f32) (b : FVec Ideal S300 .f32) : FVec Ideal S50000x300 .f32 :=
  Cert.Spec.combine h (d2col e) (agg e (normWide e) h) (biasRow b)

/-- The program's result: two layers, each after the product by its weight. -/
def out (x : FVec Ideal S50000x128 .f32) (e : IVec S2x800000 32) (w1 : FVec Ideal S128x300 .f32) (b1 : FVec Ideal S300 .f32)
    (w2 : FVec Ideal S300x300 .f32) (b2 : FVec Ideal S300 .f32) : FVec Ideal S50000x300 .f32 :=
  layer e (Cert.Spec.prod (layer e (Cert.Spec.prod x w1) b1) w2) b2

end Cert.KernelIdeal.Term

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«154621_j17703855194320_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.RegionProduct.lean ====
/-
  The two matrix-product regions of the two-layer graph convolution, each read as one whole-array function.

  A product region walks the 25 row blocks of 2000 rows of a [50000, K] array x. At block t it multiplies the block
  by the whole [K, 300] weight w into a zero accumulator and writes the [2000, 300] result back as row block t of the
  output. Entry (p, q) of that result is the sum over k of x (t·2000 + p, k) · w (k, q), which is entry
  (t·2000 + p, q) of the product x · w; the 25 blocks fill the 50000 rows, so after the region the output array is
  the product x · w of the arrays as the region finds them. Region 0 does this for the features (K = 128) and the
  first weight, region 2 for the first layer's output (K = 300) and the second weight.
-/
import proofs.«154621_j17703855194320_1_alg».proof.Proof.Gen.KernelIdeal.Frame
import proofs.«154621_j17703855194320_1_alg».proof.Proof.Spec
import proofs.«154621_j17703855194320_1_alg».proof.Proof.LibDotPlain
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx Cert.KernelIdeal Cert.KernelIdeal.Gen
open Idealize.ShloMosaic.Pipeline (Dat)

/-- The origin of a block's own rectangle, spelt as the constant function. -/
theorem origin_zero : (![0, 0] : Fin 2 → Nat) = fun _ => 0 := funext fun a => by fin_cases a <;> rfl

/-! ## A row block of a product is the product of the row block -/

/-- Entry (i, j) of the product of a [50000, K] array by a [K, 300] array, from a block of rows and a copy of the
    weight: if row p of the block is row i of the array and column q of the copy is column j of the weight, the sum
    over k of block (p, k) · copy (k, q) is the product's entry (i, j). -/
theorem sum_eq_prod {K : ℕ} (x : FVec Ideal ⟨2, ![50000, K]⟩ .f32) (w : FVec Ideal ⟨2, ![K, 300]⟩ .f32)
    (xb : FVec Ideal ⟨2, ![2000, K]⟩ .f32) (wb : FVec Ideal ⟨2, ![K, 300]⟩ .f32)
    (i : Fin 50000) (j : Fin 300) (p : Fin 2000) (q : Fin 300)
    (hx : ∀ k : Fin K, xb (ix2 p k) = x (ix2 i k)) (hw : ∀ k : Fin K, wb (ix2 k q) = w (ix2 k j)) :
    (∑ k : Fin K, xb (ix2 p k) * wb (ix2 k q)) = Cert.Spec.prod x w (ix2 i j) := by
  unfold Cert.Spec.prod
  rw [DotPlain.dotGeneral_apply]
  exact Finset.sum_congr rfl fun k _ => by rw [hx k, hw k]

/-! ## Region 0: the features times the first weight -/

/-- The body's result at entry (p, q): the two conversions to the narrower format are exact, so it is the sum over
    k of x0 (p, k) · x1 (k, q). -/
theorem pay0_apply (x0 : Vec Ideal S2000x128 .f32) (x1 : Vec Ideal S128x300 .f32) (p : Fin 2000) (q : Fin 300) :
    k0_pay1 x0 x1 (ix2 p q) = ∑ k : Fin 128, x0 (ix2 p k) * x1 (ix2 k q) := by
  unfold k0_pay1
  exact MatmulPlain.matmul_zero_apply (M := 2000) (K := 128) (N := 300) none
    (truncf .bf16 x0 bitsLt_bf16_f32) (truncf .bf16 x1 bitsLt_bf16_f32) p q

/-- The printed index maps over the grid: the feature block's row index is the output block's and its column
    index is 0; the weight is one block at index (0, 0); the output's column index is 0 and its row index is the
    point's number. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the features by the first weight, as the region finds
    them: entry (p, q) of the block is the sum over k of x (t·2000 + p, k) · w (k, q). -/
theorem flushed0_eq (c : Dev nD) (t : Fin cfg0.N) :
    (dat0 V c).flushed 2 t = ((cfg0.win 2).blk t).view.read (Elt Ideal) (Cert.Spec.prod (V c main_arg0) (V c main_arg2)) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S128x300) origin_zero]
  funext j
  obtain ⟨p, q, rfl⟩ : ∃ (p : Fin 2000) (q : Fin 300), j = ix2 p q := ⟨j 0, j 1, eq_ix2 j⟩
  obtain ⟨e00, e01, e10, e11, e20, e21⟩ := idx0 t
  have ht : t.val < 25 := t.isLt
  have hi : t.val * 2000 + p.val < 50000 := by omega
  show k0_pay1 (iblk0 V c 0 t) (iblk0 V c 1 t) (ix2 p q)
    = Cert.Spec.prod (V c main_arg0) (V c main_arg2) (((cfg0.win 2).blk t).view.emb (ix2 p q))
  have hout : ((cfg0.win 2).blk t).view.emb (ix2 p q) = ix2 (⟨t.val * 2000 + p.val, hi⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 300 + 1 * q.val = q.val; omega
  rw [hout]
  refine (pay0_apply _ _ p q).trans (sum_eq_prod _ _ _ _ _ _ p q (fun k => ?_) (fun k => ?_))
  · show V c main_arg0 (((cfg0.win 0).blk t).view.emb (ix2 p k)) = V c main_arg0 (ix2 (⟨t.val * 2000 + p.val, hi⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 300 + 1 * q.val = q.val; omega

/-- An index of the output array is in point t's block iff each coordinate is in the block's range on its axis. -/
theorem mem_blk0 (t : Fin cfg0.N) (i : S50000x300.Idx) :
    i ∈ ((cfg0.win 2).blk t).view.set ↔ ∀ a : Fin 2, win0_2.index t a * S2000x300.size a ≤ (i a).val
      ∧ (i a).val < win0_2.index t a * S2000x300.size a + S2000x300.size a := by
  show i ∈ ((View.whole main_v29).slice (win0_2.rect t)).set ↔ _
  rw [View.set_slice_whole, Rect.mem_set_unit]
  exact Iff.rfl

/-- The 25 row blocks of 2000 fill the 50000 rows: row r is in the block of point r / 2000, which is written back. -/
theorem cover0 (i : S50000x300.Idx) :
    ∃ t : Fin cfg0.N, (cfg0.win 2).flush t = true ∧ i ∈ ((cfg0.win 2).blk t).view.set := by
  have hi0 : (i 0).val < 50000 := (i 0).isLt
  have hi1 : (i 1).val < 300 := (i 1).isLt
  obtain ⟨t, ht⟩ : ∃ t : Fin cfg0.N, t.val = (i 0).val / 2000 :=
    ⟨⟨(i 0).val / 2000, by show (i 0).val / 2000 < 25; omega⟩, rfl⟩
  obtain ⟨-, -, -, -, e20, e21⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 300 ≤ (i 1).val ∧ (i 1).val < win0_2.index t (1 : Fin 2) * 300 + 300
    omega

/-- The output array after region 0 is the product of the features by the first weight, as the region finds them. -/
theorem final0 (c : Dev nD) : (dat0 V c).arrAt 2 cfg0.N = Cert.Spec.prod (V c main_arg0) (V c main_arg2) :=
  (dat0 V c).arrAt_eq_of_cover 2 (Cert.Spec.prod (V c main_arg0) (V c main_arg2))
    (fun t _ => flushed0_eq V c t) cover0

/-! ## Region 2: the first layer's output times the second weight -/

/-- The body's result at entry (p, q): the cast to the same shape is the identity and the two conversions to the
    narrower format are exact, so it is the sum over k of x0 (p, k) · x1 (k, q). -/
theorem pay2_apply (x0 : Vec Ideal S2000x300 .f32) (x1 : Vec Ideal S300x300 .f32) (p : Fin 2000) (q : Fin 300) :
    k2_pay1 x0 x1 (ix2 p q) = ∑ k : Fin 300, x0 (ix2 p k) * x1 (ix2 k q) := by
  unfold k2_pay1
  refine (MatmulPlain.matmul_zero_apply (M := 2000) (K := 300) (N := 300) none
    (truncf .bf16 (shapeCast S2000x300 x0 shapeCasts_S2000x300_S2000x300) bitsLt_bf16_f32)
    (truncf .bf16 x1 bitsLt_bf16_f32) p q).trans ?_
  refine Finset.sum_congr rfl fun k _ => ?_
  show shapeCast S2000x300 x0 shapeCasts_S2000x300_S2000x300 (ix2 p k) * x1 (ix2 k q) = _
  rw [shapeCast_self]

/-- The printed index maps over the grid: the input block's row index is the output block's and its column index
    is 0; the weight is one block at index (0, 0); the output's column index is 0 and its row index is the point's
    number. -/
theorem idx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the first layer's output by the second weight, as the
    region finds them: entry (p, q) of the block is the sum over k of h (t·2000 + p, k) · w (k, q). -/
theorem flushed2_eq (c : Dev nD) (t : Fin cfg2.N) :
    (dat2 V c).flushed 2 t = ((cfg2.win 2).blk t).view.read (Elt Ideal) (Cert.Spec.prod (V c main_v43) (V c main_arg4)) := by
  show (cfg2.win 2).cut (grid2.coords t) ((dat2 V c).after 2 t) = _
  rw [after2_2]
  unfold out2_2
  rw [View.canon_unit_zero origin_zero]
  simp only [View.ld_unit_zero (S := S2000x300) origin_zero, View.ld_unit_zero (S := S300x300) origin_zero]
  funext j
  obtain ⟨p, q, rfl⟩ : ∃ (p : Fin 2000) (q : Fin 300), j = ix2 p q := ⟨j 0, j 1, eq_ix2 j⟩
  obtain ⟨e00, e01, e10, e11, e20, e21⟩ := idx2 t
  have ht : t.val < 25 := t.isLt
  have hi : t.val * 2000 + p.val < 50000 := by omega
  show k2_pay1 (iblk2 V c 0 t) (iblk2 V c 1 t) (ix2 p q)
    = Cert.Spec.prod (V c main_v43) (V c main_arg4) (((cfg2.win 2).blk t).view.emb (ix2 p q))
  have hout : ((cfg2.win 2).blk t).view.emb (ix2 p q) = ix2 (⟨t.val * 2000 + p.val, hi⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 300 + 1 * q.val = q.val; omega
  rw [hout]
  refine (pay2_apply _ _ p q).trans (sum_eq_prod _ _ _ _ _ _ p q (fun k => ?_) (fun k => ?_))
  · show V c main_v43 (((cfg2.win 0).blk t).view.emb (ix2 p k)) = V c main_v43 (ix2 (⟨t.val * 2000 + p.val, hi⟩ : Fin 50000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 300 + 1 * k.val = k.val; omega
  · show V c main_arg4 (((cfg2.win 1).blk t).view.emb (ix2 k q)) = V c main_arg4 (ix2 k q)
    refine congrArg _ (funext fun a => Fin.ext ?_)
    match a with
    | ⟨0, _⟩ => show win2_1.index t (0 : Fin 2) * 300 + 1 * k.val = k.val; omega
    | ⟨1, _⟩ => show win2_1.index t (1 : Fin 2) * 300 + 1 * q.val = q.val; omega

/-- An index of the output array is in point t's block iff each coordinate is in the block's range on its axis. -/
theorem mem_blk2 (t : Fin cfg2.N) (i : S50000x300.Idx) :
    i ∈ ((cfg2.win 2).blk t).view.set ↔ ∀ a : Fin 2, win2_2.index t a * S2000x300.size a ≤ (i a).val
      ∧ (i a).val < win2_2.index t a * S2000x300.size a + S2000x300.size a := by
  show i ∈ ((View.whole main_v44).slice (win2_2.rect t)).set ↔ _
  rw [View.set_slice_whole, Rect.mem_set_unit]
  exact Iff.rfl

/-- The 25 row blocks of 2000 fill the 50000 rows: row r is in the block of point r / 2000, which is written back. -/
theorem cover2 (i : S50000x300.Idx) :
    ∃ t : Fin cfg2.N, (cfg2.win 2).flush t = true ∧ i ∈ ((cfg2.win 2).blk t).view.set := by
  have hi0 : (i 0).val < 50000 := (i 0).isLt
  have hi1 : (i 1).val < 300 := (i 1).isLt
  obtain ⟨t, ht⟩ : ∃ t : Fin cfg2.N, t.val = (i 0).val / 2000 :=
    ⟨⟨(i 0).val / 2000, by show (i 0).val / 2000 < 25; omega⟩, rfl⟩
  obtain ⟨-, -, -, -, e20, e21⟩ := idx2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 300 ≤ (i 1).val ∧ (i 1).val < win2_2.index t (1 : Fin 2) * 300 + 300
    omega

/-- The output array after region 2 is the product of the first layer's output by the second weight, as the
    region finds them. -/
theorem final2 (c : Dev nD) : (dat2 V c).arrAt 2 cfg2.N = Cert.Spec.prod (V c main_v43) (V c main_arg4) :=
  (dat2 V c).arrAt_eq_of_cover 2 (Cert.Spec.prod (V c main_v43) (V c main_arg4))
    (fun t _ => flushed2_eq V c t) cover2

end Cert.KernelIdeal.RegionValue

end
-- ==== Proof.RegionCombine.lean ====
/-
  The combine regions of the two-layer graph convolution, each read as ONE whole-array function.

  A combine region walks the 25 row blocks of 2000 rows of a [50000, 300] array. At block t it reads rows
  t·2000 … t·2000 + 1999 of the projected features h, of the scaling column d (a [2000, 1] block) and of the
  aggregated neighbours a, and the whole bias row b, and writes h · d + a + b entry by entry, d laid along the 300
  columns and b down the 2000 rows. Entry (p, q) of block t is therefore
      h (t·2000 + p, q) · d (t·2000 + p, 0) + a (t·2000 + p, q) + b (0, q),
  which is entry (t·2000 + p, q) of `Cert.Spec.combine h d a b`; the 25 blocks tile the array (row r lies in block
  r / 2000), so the array the region leaves IS `Cert.Spec.combine h d a b` of the arrays the region found.
-/
import proofs.«154621_j17703855194320_1_alg».proof.Proof.Gen.KernelIdeal.Frame
import proofs.«154621_j17703855194320_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

/-- The offset of a whole-block load or store: zero on both axes. -/
theorem zero_offset : (![0, 0] : Fin 2 → Nat) = fun _ => 0 := funext fun a => by fin_cases a <;> rfl

/-! ## The body at an entry -/

/-- A [2000, 1] column laid along 300 columns, read at (p, q): the column's entry p. -/
theorem column_along_columns (x : FVec Ideal S2000x1 .f32) (p : Fin 2000) (q : Fin 300) :
    broadcastTo S2000x300 x broadcasts_S2000x1_S2000x300 (ix2 p q) = x (ix2 p (0 : Fin 1)) :=
  broadcastTo_apply x broadcasts_S2000x1_S2000x300 (ix2 p q) (ix2 p (0 : Fin 1)) (by
    intro a
    match a with
    | ⟨0, _⟩ => rfl
    | ⟨1, _⟩ => rfl)

/-- A [1, 300] row laid down 2000 rows, read at (p, q): the row's entry q. -/
theorem row_down_rows (x : FVec Ideal S1x300 .f32) (p : Fin 2000) (q : Fin 300) :
    broadcastTo S2000x300 x broadcasts_S1x300_S2000x300 (ix2 p q) = x (ix2 (0 : Fin 1) q) :=
  broadcastTo_apply x broadcasts_S1x300_S2000x300 (ix2 p q) (ix2 (0 : Fin 1) q) (by
    intro a
    match a with
    | ⟨0, _⟩ => rfl
    | ⟨1, _⟩ => rfl)

/-- Entry (p, q) of what the first combine body stores, from the four blocks it loaded. -/
theorem body1_apply (x0 : FVec Ideal S2000x300 .f32) (x1 : FVec Ideal S2000x1 .f32)
    (x2 : FVec Ideal S2000x300 .f32) (x3 : FVec Ideal S1x300 .f32) (p : Fin 2000) (q : Fin 300) :
    k1_pay1 x0 x1 x2 x3 (ix2 p q)
      = x0 (ix2 p q) * x1 (ix2 p (0 : Fin 1)) + x2 (ix2 p q) + x3 (ix2 (0 : Fin 1) q) := by
  unfold k1_pay1
  simp only [shapeCast_self]
  rw [addf_apply, addf_apply, mulf_apply, column_along_columns, row_down_rows]

/-- Both combine bodies are the same function of their four blocks. -/
theorem body3_apply (x0 : FVec Ideal S2000x300 .f32) (x1 : FVec Ideal S2000x1 .f32)
    (x2 : FVec Ideal S2000x300 .f32) (x3 : FVec Ideal S1x300 .f32) (p : Fin 2000) (q : Fin 300) :
    k3_pay1 x0 x1 x2 x3 (ix2 p q)
      = x0 (ix2 p q) * x1 (ix2 p (0 : Fin 1)) + x2 (ix2 p q) + x3 (ix2 (0 : Fin 1) q) :=
  body1_apply x0 x1 x2 x3 p q

/-- The four entries a block entry is made of, named by where they sit in the arrays: h and a at the output's own
    index i, d at i's row in its one column, b at i's column in its one row. Then the block entry is the
    combination's entry i. -/
theorem combine_at (H : FVec Ideal S50000x300 .f32) (D : FVec Ideal S50000x1 .f32)
    (A : FVec Ideal S50000x300 .f32) (B : FVec Ideal S1x300 .f32)
    (i i0 i2 : S50000x300.Idx) (i1 : S50000x1.Idx) (i3 : S1x300.Idx)
    (h0 : i0 = i) (h1 : i1 = ix2 (i 0 : Fin 50000) (0 : Fin 1)) (h2 : i2 = i)
    (h3 : i3 = ix2 (0 : Fin 1) (i 1 : Fin 300)) :
    H i0 * D i1 + A i2 + B i3 = Cert.Spec.combine H D A B i := by
  subst h0 h1 h2 h3; rfl

/-! ## Region 1: from the blocks to the array -/

section Region1

variable (V : (c : Dev nD) → (b : Ref sig .tc) → Buf (Elt Ideal) ((c : Thread nD τ).loc b))

/-- The printed index maps over the 25 grid points: the blocks of h, d and a sit at the output's block on the row
    axis, the bias row is the one whole block, every block sits at 0 on the column axis, and the output's block on
    the row axis is the point itself. -/
theorem block_indices1 : ∀ t : Fin cfg1.N,
      win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the combination of the arrays as the region finds them. -/
theorem flushed1_eq (c : Dev nD) (t : Fin cfg1.N) :
    (dat1 V c).flushed 4 t = ((cfg1.win 4).blk t).view.read (Elt Ideal)
      (Cert.Spec.combine (V c main_v29) (V c main_v12) (V c main_v41) (V c main_v42)) := by
  show (cfg1.win 4).cut (grid1.coords t) ((dat1 V c).after 4 t) = _
  rw [after1_4]
  unfold out1_4
  rw [View.canon_unit_zero zero_offset]
  simp only [View.ld_unit_zero (S := S2000x300) zero_offset, View.ld_unit_zero (S := S2000x1) zero_offset,
    View.ld_unit_zero (S := S1x300) zero_offset]
  obtain ⟨e00, e01, e10, e11, e20, e21, e30, e31, e40, e41⟩ := block_indices1 t
  funext j
  obtain ⟨p, q, rfl⟩ : ∃ (p : Fin 2000) (q : Fin 300), j = ix2 p q := ⟨j 0, j 1, eq_ix2 j⟩
  have hp : p.val < 2000 := p.isLt
  have hq : q.val < 300 := q.isLt
  refine (body1_apply (iblk1 V c 0 t) (iblk1 V c 1 t) (iblk1 V c 2 t) (iblk1 V c 3 t) p q).trans ?_
  -- where the four block entries sit in their arrays: a block's coordinate is index × size + the coordinate inside
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 300 + 1 * q.val = win1_4.index t (1 : Fin 2) * 300 + 1 * q.val; omega
  have h1 : ((cfg1.win 1).blk t).view.emb (ix2 p (0 : Fin 1))
      = ix2 ((((cfg1.win 4).blk t).view.emb (ix2 p q)) 0 : Fin 50000) (0 : Fin 1) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  have h2 : ((cfg1.win 2).blk t).view.emb (ix2 p q) = ((cfg1.win 4).blk t).view.emb (ix2 p q) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 300 + 1 * q.val = win1_4.index t (1 : Fin 2) * 300 + 1 * q.val; omega
  have h3 : ((cfg1.win 3).blk t).view.emb (ix2 (0 : Fin 1) q)
      = ix2 (0 : Fin 1) ((((cfg1.win 4).blk t).view.emb (ix2 p q)) 1 : Fin 300) := by
    funext a; apply Fin.ext
    match a with
    | ⟨0, _⟩ => show win1_3.index t (0 : Fin 2) * 1 + 1 * 0 = 0; omega
    | ⟨1, _⟩ => show win1_3.index t (1 : Fin 2) * 300 + 1 * q.val = win1_4.index t (1 : Fin 2) * 300 + 1 * q.val; omega
  exact combine_at (V c main_v29) (V c main_v12) (V c main_v41) (V c main_v42)
    (((cfg1.win 4).blk t).view.emb (ix2 p q)) (((cfg1.win 0).blk t).view.emb (ix2 p q))
    (((cfg1.win 2).blk t).view.emb (ix2 p q)) (((cfg1.win 1).blk t).view.emb (ix2 p (0 : Fin 1)))
    (((cfg1.win 3).blk t).view.emb (ix2 (0 : Fin 1) q)) h0 h1 h2 h3

/-- An index of the array is in point `t`'s block iff each coordinate is in the block's range on its axis. -/
theorem mem_block1 (t : Fin cfg1.N) (i : S50000x300.Idx) :
    i ∈ ((cfg1.win 4).blk t).view.set ↔ ∀ a : Fin 2, win1_4.index t a * S2000x300.size a ≤ (i a).val
      ∧ (i a).val < win1_4.index t a * S2000x300.size a + S2000x300.size a := by
  show i ∈ ((View.whole main_v43).slice (win1_4.rect t)).set ↔ _
  rw [View.set_slice_whole, Rect.mem_set_unit]
  exact Iff.rfl

/-- The 25 blocks tile the array: row r lies in block r / 2000. -/
theorem cover1 (i : S50000x300.Idx) :
    ∃ t : Fin cfg1.N, (cfg1.win 4).flush t = true ∧ i ∈ ((cfg1.win 4).blk t).view.set := by
  have hi0 : (i 0).val < 50000 := (i 0).isLt
  have hi1 : (i 1).val < 300 := (i 1).isLt
  have hN : cfg1.N = 25 := N_1
  let t : Fin cfg1.N := ⟨(i 0).val / 2000, by rw [hN]; omega⟩
  have ht : t.val = (i 0).val / 2000 := rfl
  obtain ⟨-, -, -, -, -, -, -, -, e40, e41⟩ := block_indices1 t
  refine ⟨t, flush1_4 t, ?_⟩
  rw [mem_block1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 300 ≤ (i 1).val ∧ (i 1).val < win1_4.index t (1 : Fin 2) * 300 + 300; omega

/-- THE ARRAY the region leaves: the combination of the arrays it found. -/
theorem final1 (c : Dev nD) : (dat1 V c).arrAt 4 cfg1.N
    = Cert.Spec.combine (V c main_v29) (V c main_v12) (V c main_v41) (V c main_v42) :=
  (dat1 V c).arrAt_eq_of_cover 4 (Cert.Spec.combine (V c main_v29) (V c main_v12) (V c main_v41) (V c main_v42))
    (fun t _ => flushed1_eq V c t) (cover1)

end Region1

end Cert.KernelIdeal.RegionValue

end
-- ==== Proof.RegionCombine3.lean ====
/-
  The second layer's combine region read as ONE whole-array function: the first layer's argument (RegionCombine.lean,
  whose lemmas on the body's entries it uses) at the second layer's windows and arrays. Block t of the output holds
  h · d + a + b at rows t·2000 … t·2000 + 1999, the 25 blocks tile the [50000, 300] array, so the region leaves
  `Cert.Spec.combine h d a b` of the arrays it found.
-/
import proofs.«154621_j17703855194320_1_alg».proof.Proof.RegionCombine

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

/-! ## Region 3: from the blocks to the array -/

section Region3

variable (V : (c : Dev nD) → (b : Ref sig .tc) → Buf (Elt Ideal) ((c : Thread nD τ).loc b))

/-- The printed index maps over the 25 grid points: the blocks of h, d and a sit at the output's block on the row
    axis, the bias row is the one whole block, every block sits at 0 on the column axis, and the output's block on
    the row axis is the point itself. -/
theorem block_indices3 : ∀ t : Fin cfg3.N,
      win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of the combination of the arrays as the region finds them. -/
theorem flushed3_eq (c : Dev nD) (t : Fin cfg3.N) :
    (dat3 V c).flushed 4 t = ((cfg3.win 4).blk t).view.read (Elt Ideal)
      (Cert.Spec.combine (V c main_v44) (V c main_v12) (V c main_v56) (V c main_v57)) := by
  show (cfg3.win 4).cut (grid3.coords t) ((dat3 V c).after 4 t) = _
  rw [after3_4]
  unfold out3_4
  rw [View.canon_unit_zero zero_offset]
  simp only [View.ld_unit_zero (S := S2000x300) zero_offset, View.ld_unit_zero (S := S2000x1) zero_offset,
    View.ld_unit_zero (S := S1x300) zero_offset]
  obtain ⟨e00, e01, e10, e11, e20, e21, e30, e31, e40, e41⟩ := block_indices3 t
  funext j
  obtain ⟨p, q, rfl⟩ : ∃ (p : Fin 2000) (q : Fin 300), j = ix2 p q := ⟨j 0, j 1, eq_ix2 j⟩
  have hp : p.val < 2000 := p.isLt
  have hq : q.val < 300 := q.isLt
  refine (body3_apply (iblk3 V c 0 t) (iblk3 V c 1 t) (iblk3 V c 2 t) (iblk3 V c 3 t) p q).trans ?_
  -- where the four block entries sit in their arrays: a block's coordinate is index × size + the coordinate inside
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 300 + 1 * q.val = win3_4.index t (1 : Fin 2) * 300 + 1 * q.val; omega
  have h1 : ((cfg3.win 1).blk t).view.emb (ix2 p (0 : Fin 1))
      = ix2 ((((cfg3.win 4).blk t).view.emb (ix2 p q)) 0 : Fin 50000) (0 : Fin 1) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 1 + 1 * 0 = 0; omega
  have h2 : ((cfg3.win 2).blk t).view.emb (ix2 p q) = ((cfg3.win 4).blk t).view.emb (ix2 p q) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 300 + 1 * q.val = win3_4.index t (1 : Fin 2) * 300 + 1 * q.val; omega
  have h3 : ((cfg3.win 3).blk t).view.emb (ix2 (0 : Fin 1) q)
      = ix2 (0 : Fin 1) ((((cfg3.win 4).blk t).view.emb (ix2 p q)) 1 : Fin 300) := by
    funext a; apply Fin.ext
    match a with
    | ⟨0, _⟩ => show win3_3.index t (0 : Fin 2) * 1 + 1 * 0 = 0; omega
    | ⟨1, _⟩ => show win3_3.index t (1 : Fin 2) * 300 + 1 * q.val = win3_4.index t (1 : Fin 2) * 300 + 1 * q.val; omega
  exact combine_at (V c main_v44) (V c main_v12) (V c main_v56) (V c main_v57)
    (((cfg3.win 4).blk t).view.emb (ix2 p q)) (((cfg3.win 0).blk t).view.emb (ix2 p q))
    (((cfg3.win 2).blk t).view.emb (ix2 p q)) (((cfg3.win 1).blk t).view.emb (ix2 p (0 : Fin 1)))
    (((cfg3.win 3).blk t).view.emb (ix2 (0 : Fin 1) q)) h0 h1 h2 h3

/-- An index of the array is in point `t`'s block iff each coordinate is in the block's range on its axis. -/
theorem mem_block3 (t : Fin cfg3.N) (i : S50000x300.Idx) :
    i ∈ ((cfg3.win 4).blk t).view.set ↔ ∀ a : Fin 2, win3_4.index t a * S2000x300.size a ≤ (i a).val
      ∧ (i a).val < win3_4.index t a * S2000x300.size a + S2000x300.size a := by
  show i ∈ ((View.whole main_v58).slice (win3_4.rect t)).set ↔ _
  rw [View.set_slice_whole, Rect.mem_set_unit]
  exact Iff.rfl

/-- The 25 blocks tile the array: row r lies in block r / 2000. -/
theorem cover3 (i : S50000x300.Idx) :
    ∃ t : Fin cfg3.N, (cfg3.win 4).flush t = true ∧ i ∈ ((cfg3.win 4).blk t).view.set := by
  have hi0 : (i 0).val < 50000 := (i 0).isLt
  have hi1 : (i 1).val < 300 := (i 1).isLt
  have hN : cfg3.N = 25 := N_3
  let t : Fin cfg3.N := ⟨(i 0).val / 2000, by rw [hN]; omega⟩
  have ht : t.val = (i 0).val / 2000 := rfl
  obtain ⟨-, -, -, -, -, -, -, -, e40, e41⟩ := block_indices3 t
  refine ⟨t, flush3_4 t, ?_⟩
  rw [mem_block3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 300 ≤ (i 1).val ∧ (i 1).val < win3_4.index t (1 : Fin 2) * 300 + 300; omega

/-- THE ARRAY the region leaves: the combination of the arrays it found. -/
theorem final3 (c : Dev nD) : (dat3 V c).arrAt 4 cfg3.N
    = Cert.Spec.combine (V c main_v44) (V c main_v12) (V c main_v56) (V c main_v57) :=
  (dat3 V c).arrAt_eq_of_cover 4 (Cert.Spec.combine (V c main_v44) (V c main_v12) (V c main_v56) (V c main_v57))
    (fun t _ => flushed3_eq V c t) (cover3)

end Region3

end Cert.KernelIdeal.RegionValue

end
-- ==== Proof.KernelWalk.lean ====
/-
  The idealized kernel's result buffer at the end of the run, as a function of the argument arrays.

  The run passes seven boundaries: a stretch of host operations, the first product, host operations, the first
  combine, the second product, host operations, the second combine. At each boundary the few buffers later steps
  read are named: the source and destination vectors, the column of dinv², the column of edge weights (all made by the
  first stretch and never written again), each region's output array (the region's whole-array function of its
  inputs) and each aggregate (the host operations' own term). Read backwards from the result this gives two layers,
  each after a product.
-/
import proofs.«154621_j17703855194320_1_alg».proof.Proof.Gen.KernelIdeal.Frame
import proofs.«154621_j17703855194320_1_alg».proof.Proof.KernelTerm
import proofs.«154621_j17703855194320_1_alg».proof.Proof.RegionProduct
import proofs.«154621_j17703855194320_1_alg».proof.Proof.RegionCombine3
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The argument arrays as launched: the features, the edge list, the two weights and the two biases. -/
abbrev a0 (c : Dev nD) : FVec Ideal S50000x128 .f32 := m ((c : Thread nD τ).loc main_arg0)
abbrev a1 (c : Dev nD) : IVec S2x800000 32 := m ((c : Thread nD τ).loc main_arg1)
abbrev a2 (c : Dev nD) : FVec Ideal S128x300 .f32 := m ((c : Thread nD τ).loc main_arg2)
abbrev a3 (c : Dev nD) : FVec Ideal S300 .f32 := m ((c : Thread nD τ).loc main_arg3)
abbrev a4 (c : Dev nD) : FVec Ideal S300x300 .f32 := m ((c : Thread nD τ).loc main_arg4)
abbrev a5 (c : Dev nD) : FVec Ideal S300 .f32 := m ((c : Thread nD τ).loc main_arg5)

/-- The first layer's projected features, and the first layer's output. -/
abbrev h1 (c : Dev nD) : FVec Ideal S50000x300 .f32 := Cert.Spec.prod (a0 m c) (a2 m c)
abbrev x1 (c : Dev nD) : FVec Ideal S50000x300 .f32 := Term.layer (a1 m c) (h1 m c) (a3 m c)
/-- The second layer's projected features. -/
abbrev h2 (c : Dev nD) : FVec Ideal S50000x300 .f32 := Cert.Spec.prod (x1 m c) (a4 m c)

/-- Four equal arguments give equal values. -/
theorem congr4 {α β γ δ ε : Type} (f : α → β → γ → δ → ε) {x x' : α} {y y' : β} {z z' : γ} {u u' : δ}
    (hx : x = x') (hy : y = y') (hz : z = z') (hu : u = u') : f x y z u = f x' y' z' u' := by
  subst hx hy hz hu; rfl

/-! ## After the first stretch of host operations

    No operation writes an argument; the stretch makes the source and destination vectors, dinv² as a column and the
    edge weights as a column. -/

theorem W1_arg0 (c : Dev nD) : W1 m ρ c (Proc.devRef .tc main_arg0) = a0 m c := by
  show StableHlo.after hostOps0 (W0 m ρ c) (Proc.devRef .tc main_arg0) = _
  after_results
theorem W1_arg2 (c : Dev nD) : W1 m ρ c (Proc.devRef .tc main_arg2) = a2 m c := by
  show StableHlo.after hostOps0 (W0 m ρ c) (Proc.devRef .tc main_arg2) = _
  after_results
theorem W1_arg3 (c : Dev nD) : W1 m ρ c (Proc.devRef .tc main_arg3) = a3 m c := by
  show StableHlo.after hostOps0 (W0 m ρ c) (Proc.devRef .tc main_arg3) = _
  after_results
theorem W1_arg4 (c : Dev nD) : W1 m ρ c (Proc.devRef .tc main_arg4) = a4 m c := by
  show StableHlo.after hostOps0 (W0 m ρ c) (Proc.devRef .tc main_arg4) = _
  after_results
theorem W1_arg5 (c : Dev nD) : W1 m ρ c (Proc.devRef .tc main_arg5) = a5 m c := by
  show StableHlo.after hostOps0 (W0 m ρ c) (Proc.devRef .tc main_arg5) = _
  after_results
theorem W1_v1 (c : Dev nD) : W1 m ρ c (Proc.devRef .tc main_v1) = Term.src (a1 m c) := by
  show StableHlo.after hostOps0 (W0 m ρ c) (Proc.devRef .tc main_v1) = _
  after_results
  rfl
theorem W1_v3 (c : Dev nD) : W1 m ρ c (Proc.devRef .tc main_v3) = Term.dst (a1 m c) := by
  show StableHlo.after hostOps0 (W0 m ρ c) (Proc.devRef .tc main_v3) = _
  after_results
  rfl
theorem W1_v12 (c : Dev nD) : W1 m ρ c (Proc.devRef .tc main_v12) = Term.d2col (a1 m c) := by
  show StableHlo.after hostOps0 (W0 m ρ c) (Proc.devRef .tc main_v12) = _
  after_results
  rfl
set_option maxHeartbeats 4000000 in
theorem W1_v28 (c : Dev nD) : W1 m ρ c (Proc.devRef .tc main_v28) = Term.normCol (a1 m c) := by
  show StableHlo.after hostOps0 (W0 m ρ c) (Proc.devRef .tc main_v28) = _
  after_results_simp
  rfl

/-! ## After the first product

    The region writes its output array only; every other buffer is as it was entered. -/

theorem W2_v1 (c : Dev nD) : W2 m ρ c (Proc.devRef .tc main_v1) = Term.src (a1 m c) :=
  (W2_of_ne m ρ c main_v1 (by decide)).trans (W1_v1 m ρ c)
theorem W2_v3 (c : Dev nD) : W2 m ρ c (Proc.devRef .tc main_v3) = Term.dst (a1 m c) :=
  (W2_of_ne m ρ c main_v3 (by decide)).trans (W1_v3 m ρ c)
theorem W2_v12 (c : Dev nD) : W2 m ρ c (Proc.devRef .tc main_v12) = Term.d2col (a1 m c) :=
  (W2_of_ne m ρ c main_v12 (by decide)).trans (W1_v12 m ρ c)
theorem W2_v28 (c : Dev nD) : W2 m ρ c (Proc.devRef .tc main_v28) = Term.normCol (a1 m c) :=
  (W2_of_ne m ρ c main_v28 (by decide)).trans (W1_v28 m ρ c)
theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
/-- The first product's output array: the features times the first weight. -/
theorem W2_v29 (c : Dev nD) : W2 m ρ c (Proc.devRef .tc main_v29) = h1 m c :=
  (W2_arr m ρ c 2).trans ((RegionValue.final0 (V1 m ρ) c).trans
    (congrArg₂ Cert.Spec.prod (W1_arg0 m ρ c) (W1_arg2 m ρ c)))

/-! ## After the second stretch of host operations

    It makes the first aggregate and the first bias as a row, and writes nothing made before. -/

theorem W3_v1 (c : Dev nD) : W3 m ρ c (Proc.devRef .tc main_v1) = Term.src (a1 m c) := by
  refine Eq.trans ?_ (W2_v1 m ρ c)
  show StableHlo.after hostOps1 (W2 m ρ c) (Proc.devRef .tc main_v1) = _
  after_results
theorem W3_v3 (c : Dev nD) : W3 m ρ c (Proc.devRef .tc main_v3) = Term.dst (a1 m c) := by
  refine Eq.trans ?_ (W2_v3 m ρ c)
  show StableHlo.after hostOps1 (W2 m ρ c) (Proc.devRef .tc main_v3) = _
  after_results
theorem W3_v12 (c : Dev nD) : W3 m ρ c (Proc.devRef .tc main_v12) = Term.d2col (a1 m c) := by
  refine Eq.trans ?_ (W2_v12 m ρ c)
  show StableHlo.after hostOps1 (W2 m ρ c) (Proc.devRef .tc main_v12) = _
  after_results
theorem W3_v28 (c : Dev nD) : W3 m ρ c (Proc.devRef .tc main_v28) = Term.normCol (a1 m c) := by
  refine Eq.trans ?_ (W2_v28 m ρ c)
  show StableHlo.after hostOps1 (W2 m ρ c) (Proc.devRef .tc main_v28) = _
  after_results
theorem W3_arg4 (c : Dev nD) : W3 m ρ c (Proc.devRef .tc main_arg4) = a4 m c := by
  refine Eq.trans ?_ (W2_arg4 m ρ c)
  show StableHlo.after hostOps1 (W2 m ρ c) (Proc.devRef .tc main_arg4) = _
  after_results
theorem W3_arg5 (c : Dev nD) : W3 m ρ c (Proc.devRef .tc main_arg5) = a5 m c := by
  refine Eq.trans ?_ (W2_arg5 m ρ c)
  show StableHlo.after hostOps1 (W2 m ρ c) (Proc.devRef .tc main_arg5) = _
  after_results
theorem W3_v29 (c : Dev nD) : W3 m ρ c (Proc.devRef .tc main_v29) = h1 m c := by
  refine Eq.trans ?_ (W2_v29 m ρ c)
  show StableHlo.after hostOps1 (W2 m ρ c) (Proc.devRef .tc main_v29) = _
  after_results
set_option maxHeartbeats 4000000 in
/-- The first aggregate: the neighbours' rows of the projected features, weighted and summed. -/
theorem W3_v41 (c : Dev nD) : W3 m ρ c (Proc.devRef .tc main_v41)
    = Term.agg (a1 m c) (Term.normWide (a1 m c)) (h1 m c) := by
  show StableHlo.after hostOps1 (W2 m ρ c) (Proc.devRef .tc main_v41) = _
  after_results
  rw [W2_v1 m ρ c, W2_v3 m ρ c, W2_v28 m ρ c, W2_v29 m ρ c]
  unfold Term.agg Term.normWide Term.col Term.wrap
  rfl
/-- The first bias as a row. -/
theorem W3_v42 (c : Dev nD) : W3 m ρ c (Proc.devRef .tc main_v42) = Term.biasRow (a3 m c) := by
  show StableHlo.after hostOps1 (W2 m ρ c) (Proc.devRef .tc main_v42) = _
  after_results
  rw [W2_arg3 m ρ c]
  rfl

/-! ## After the first combine

    The region writes its output array; dinv² as a column is one of its inputs, which a region leaves as entered. -/

theorem W4_v1 (c : Dev nD) : W4 m ρ c (Proc.devRef .tc main_v1) = Term.src (a1 m c) :=
  (W4_of_ne m ρ c main_v1 (by decide)).trans (W3_v1 m ρ c)
theorem W4_v3 (c : Dev nD) : W4 m ρ c (Proc.devRef .tc main_v3) = Term.dst (a1 m c) :=
  (W4_of_ne m ρ c main_v3 (by decide)).trans (W3_v3 m ρ c)
theorem W4_v28 (c : Dev nD) : W4 m ρ c (Proc.devRef .tc main_v28) = Term.normCol (a1 m c) :=
  (W4_of_ne m ρ c main_v28 (by decide)).trans (W3_v28 m ρ c)
theorem W4_v12 (c : Dev nD) : W4 m ρ c (Proc.devRef .tc main_v12) = Term.d2col (a1 m c) :=
  ((W4_arr m ρ c 1).trans (((dat1 (V3 m ρ) c).arrAt_in 1 rfl _).trans (A_eq1 (V3 m ρ) c 1))).trans (W3_v12 m ρ c)
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
/-- The first layer's output array. -/
theorem W4_v43 (c : Dev nD) : W4 m ρ c (Proc.devRef .tc main_v43) = x1 m c :=
  (W4_arr m ρ c 4).trans ((RegionValue.final1 (V3 m ρ) c).trans
    (congr4 Cert.Spec.combine (W3_v29 m ρ c) (W3_v12 m ρ c) (W3_v41 m ρ c) (W3_v42 m ρ c)))

/-! ## After the second product -/

theorem W5_v1 (c : Dev nD) : W5 m ρ c (Proc.devRef .tc main_v1) = Term.src (a1 m c) :=
  (W5_of_ne m ρ c main_v1 (by decide)).trans (W4_v1 m ρ c)
theorem W5_v3 (c : Dev nD) : W5 m ρ c (Proc.devRef .tc main_v3) = Term.dst (a1 m c) :=
  (W5_of_ne m ρ c main_v3 (by decide)).trans (W4_v3 m ρ c)
theorem W5_v12 (c : Dev nD) : W5 m ρ c (Proc.devRef .tc main_v12) = Term.d2col (a1 m c) :=
  (W5_of_ne m ρ c main_v12 (by decide)).trans (W4_v12 m ρ c)
theorem W5_v28 (c : Dev nD) : W5 m ρ c (Proc.devRef .tc main_v28) = Term.normCol (a1 m c) :=
  (W5_of_ne m ρ c main_v28 (by decide)).trans (W4_v28 m ρ c)
theorem W5_arg5 (c : Dev nD) : W5 m ρ c (Proc.devRef .tc main_arg5) = a5 m c :=
  (W5_of_ne m ρ c main_arg5 (by decide)).trans (W4_arg5 m ρ c)
/-- The second product's output array: the first layer's output times the second weight. -/
theorem W5_v44 (c : Dev nD) : W5 m ρ c (Proc.devRef .tc main_v44) = h2 m c :=
  (W5_arr m ρ c 2).trans ((RegionValue.final2 (V4 m ρ) c).trans
    (congrArg₂ Cert.Spec.prod (W4_v43 m ρ c) (W4_arg4 m ρ c)))

/-! ## After the third stretch of host operations

    It makes the second aggregate and the second bias as a row. -/

theorem W6_v12 (c : Dev nD) : W6 m ρ c (Proc.devRef .tc main_v12) = Term.d2col (a1 m c) := by
  refine Eq.trans ?_ (W5_v12 m ρ c)
  show StableHlo.after hostOps3 (W5 m ρ c) (Proc.devRef .tc main_v12) = _
  after_results
theorem W6_v44 (c : Dev nD) : W6 m ρ c (Proc.devRef .tc main_v44) = h2 m c := by
  refine Eq.trans ?_ (W5_v44 m ρ c)
  show StableHlo.after hostOps3 (W5 m ρ c) (Proc.devRef .tc main_v44) = _
  after_results
set_option maxHeartbeats 4000000 in
/-- The second aggregate. -/
theorem W6_v56 (c : Dev nD) : W6 m ρ c (Proc.devRef .tc main_v56)
    = Term.agg (a1 m c) (Term.normWide (a1 m c)) (h2 m c) := by
  show StableHlo.after hostOps3 (W5 m ρ c) (Proc.devRef .tc main_v56) = _
  after_results
  rw [W5_v1 m ρ c, W5_v3 m ρ c, W5_v28 m ρ c, W5_v44 m ρ c]
  unfold Term.agg Term.normWide Term.col Term.wrap
  rfl
/-- The second bias as a row. -/
theorem W6_v57 (c : Dev nD) : W6 m ρ c (Proc.devRef .tc main_v57) = Term.biasRow (a5 m c) := by
  show StableHlo.after hostOps3 (W5 m ρ c) (Proc.devRef .tc main_v57) = _
  after_results
  rw [W5_arg5 m ρ c]
  rfl

/-! ## The result -/

/-- The result buffer at the last boundary is the program's function of the argument arrays. -/
theorem W7_v58 (c : Dev nD) : W7 m ρ c (Proc.devRef .tc main_v58)
    = Term.out (a0 m c) (a1 m c) (a2 m c) (a3 m c) (a4 m c) (a5 m c) :=
  (W7_arr m ρ c 4).trans ((RegionValue.final3 (V6 m ρ) c).trans
    (congr4 Cert.Spec.combine (W6_v44 m ρ c) (W6_v12 m ρ c) (W6_v56 m ρ c) (W6_v57 m ρ c)))

end Cert.KernelIdeal.Walk

end
-- ==== Proof.RefTerm.lean ====
/-
  What the reference program computes, as functions of the argument arrays on the extended reals, and that the
  run's result term is that function.

  The pieces are the same as the kernel's: the source and destination vectors from the edge list, the inverse square
  root of the degree dinv, per edge the product of dinv at its two ends. The reference lays a vector out as a column,
  and the bias as a row, by a broadcast along one axis. One layer on projected features h is
  (agg h + h · dinv² along the rows) + the bias along the columns, and the program is two layers, each after a matrix
  product by its weight. The reference computes the degree in each layer anew; it is the same vector both times.
-/
import proofs.«154621_j17703855194320_1_alg».proof.Proof.Gen.ReferenceIdeal.Run
import Idealize.ShloMosaic.PureOps.Ideal.Laws

set_option maxRecDepth 16384

noncomputable section

namespace Cert.ReferenceIdeal.Term

open Idealize.ShloMosaic Idealize.ShloMosaic.TcCoe Idealize.SL.Sem Cert.ReferenceIdeal
open Cert.ReferenceIdeal.Facts₀ Cert.ReferenceIdeal.Facts

/-- The edges' source nodes: row 0 of the edge list. -/
def src (e : IVec S2x800000 32) : IVec S800000 32 :=
  shapeCast S800000 (extractStridedSlice S1x800000 ![0, 0] e slices_S2x800000_S1x800000_0_0) shapeCasts_S1x800000_S800000

/-- The edges' destination nodes: row 1 of the edge list. -/
def dst (e : IVec S2x800000 32) : IVec S800000 32 :=
  shapeCast S800000 (extractStridedSlice S1x800000 ![1, 0] e slices_S2x800000_S1x800000_1_0) shapeCasts_S1x800000_S800000

/-- A negative index counts from the end: 50000 is added to it. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index vector as a column of one-entry index rows. -/
def col (v : IVec S800000 32) : IVec S800000x1 32 := broadcastInDim S800000x1 ![0] bcast_S800000_S800000x1_0 v

/-- The inverse square root of each node's degree (edges ending at it, plus one). -/
def dinv (e : IVec S2x800000 32) : FVec Ideal S50000 .f32 :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32)) (col (dst e))
      (broadcastInDim S800000 ![] bcast_S_S800000 (constant (F := Ideal) S_ .f32 0x3F800000#32)))
    (broadcastInDim S50000 ![] bcast_S_S50000 (constant (F := Ideal) S_ .f32 0x3F800000#32)))

/-- dinv² as a column. -/
def d2col (e : IVec S2x800000 32) : FVec Ideal S50000x1 .f32 :=
  broadcastInDim S50000x1 ![0] bcast_S50000_S50000x1_0 (mulf (F := Ideal) (dinv e) (dinv e))

/-- Per edge, dinv at the source times dinv at the destination. -/
def norm (e : IVec S2x800000 32) : FVec Ideal S800000 .f32 :=
  mulf (F := Ideal) (Host.gather gather_S50000_S800000x1_S800000_n_0_n_n_0_1_1 (dinv e) (col (wrap (src e))))
    (Host.gather gather_S50000_S800000x1_S800000_n_0_n_n_0_1_1 (dinv e) (col (wrap (dst e))))

/-- The same as a column. -/
def normCol (e : IVec S2x800000 32) : FVec Ideal S800000x1 .f32 :=
  broadcastInDim S800000x1 ![0] bcast_S800000_S800000x1_0 (norm e)

/-- The edge weights laid along the 300 columns. -/
def normWide (e : IVec S2x800000 32) : FVec Ideal S800000x300 .f32 :=
  broadcastInDim S800000x300 ![0, 1] bcast_S800000x1_S800000x300_0_1 (normCol e)

/-- The neighbours' rows of `h`, each scaled by its edge's entry of `nrm`, summed into the edge's destination. -/
def agg (e : IVec S2x800000 32) (nrm : FVec Ideal S800000x300 .f32) (h : FVec Ideal S50000x300 .f32) : FVec Ideal S50000x300 .f32 :=
  Host.scatterAdd (F := Ideal) scatter_S50000x300_S800000x1_S800000x300_1_0_0_1
    (broadcastInDim S50000x300 ![] bcast_S_S50000x300 (constant (F := Ideal) S_ .f32 0x00000000#32)) (col (dst e))
    (mulf (F := Ideal) (Host.gather gather_S50000x300_S800000x1_S800000x300_1_0_n_n_0_1_1300 h (col (wrap (src e)))) nrm)

/-- The bias as a row. -/
def biasRow (b : FVec Ideal S300 .f32) : FVec Ideal S1x300 .f32 := broadcastInDim S1x300 ![1] bcast_S300_S1x300_1 b

/-- One layer on projected features `h`. -/
def layer (e : IVec S2x800000 32) (h : FVec Ideal S50000x300 .f32) (b : FVec Ideal S300 .f32) : FVec Ideal S50000x300 .f32 :=
  addf (F := Ideal)
    (addf (F := Ideal) (agg e (normWide e) h)
      (mulf (F := Ideal) h (broadcastInDim S50000x300 ![0, 1] bcast_S50000x1_S50000x300_0_1 (d2col e))))
    (broadcastInDim S50000x300 ![0, 1] bcast_S1x300_S50000x300_0_1 (biasRow b))

/-- The program's result: two layers, each after the product by its weight. -/
def out (x : FVec Ideal S50000x128 .f32) (e : IVec S2x800000 32) (w1 : FVec Ideal S128x300 .f32) (b1 : FVec Ideal S300 .f32)
    (w2 : FVec Ideal S300x300 .f32) (b2 : FVec Ideal S300 .f32) : FVec Ideal S50000x300 .f32 :=
  layer e (Host.dotGeneral (F := Ideal) dot_S50000x300_S300x300_S50000x300_1_0_0_1_n_n none
    (layer e (Host.dotGeneral (F := Ideal) dot_S50000x128_S128x300_S50000x300_1_0_0_1_n_n none x w1) b1) w2) b2

/-- The run's result term is `out` of the argument arrays: the operations' composed term, its repeated parts named. -/
theorem res_eq (m : (ℓ : Loc nD τ sig) → Buf (Elt Ideal) ℓ) (c : Dev nD) :
    Value.res_main_v91 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Value.res_main_v91 out layer biasRow agg normWide normCol norm d2col dinv col wrap src dst
  rfl

end Cert.ReferenceIdeal.Term

end
-- ==== Proof.LibHostColumns.lean ====
/-
  General lemmas: a vector laid out as a column or as a row, by a cast or by a host broadcast along one axis.

  * `shapeCast_col_eq_broadcastInDim`: an [a] vector cast to a column [a, 1] is its host broadcast along axis 0.
  * `shapeCast_row_eq_broadcastInDim`: a [b] vector cast to a row [1, b] is its host broadcast along axis 1.
  * `broadcastInDim_col_apply`: a column [a, 1] broadcast by the host to [a, b], read at (p, q), is the column at p.
  Generic in the extents; nothing here mentions a program.
-/
import Idealize.ShloMosaic.Lib.ValueIdx
import Idealize.ShloMosaic.Lib.Pipeline.Value

namespace Cert.HostColumns

open Idealize.ShloMosaic Idealize.ShloMosaic.ValueIdx

variable {α : Type}

/-- An [a] vector cast to a column [a, 1] is its host broadcast along axis 0: both read the vector at the row. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext j
  obtain ⟨i, u, rfl⟩ : ∃ (i : Fin a) (u : Fin 1), j = ix2 i u := ⟨j 0, j 1, eq_ix2 j⟩
  have e1 : shapeCast ⟨2, ![a, 1]⟩ x h (ix2 i u) = x (ix1 i) :=
    shapeCast_apply x h _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hd x (ix2 i u) = x (ix1 i) :=
    broadcastInDim_apply ![0] hd x (ix2 i u) (ix1 i) (by
      intro ax
      match ax with
      | ⟨0, _⟩ =>
        show i.val = if a = 1 then 0 else i.val
        split
        · have := i.isLt; omega
        · rfl)
  exact e1.trans e2.symm

/-- A [b] vector cast to a row [1, b] is its host broadcast along axis 1: both read the vector at the column. -/
theorem shapeCast_row_eq_broadcastInDim {b : ℕ} (x : (⟨1, ![b]⟩ : Shape).Idx → α)
    (h : (⟨1, ![b]⟩ : Shape).ShapeCasts ⟨2, ![1, b]⟩) (hd : (⟨1, ![b]⟩ : Shape).BroadcastsInDim ⟨2, ![1, b]⟩ ![1]) :
    shapeCast ⟨2, ![1, b]⟩ x h = broadcastInDim ⟨2, ![1, b]⟩ ![1] hd x := by
  funext j
  obtain ⟨u, q, rfl⟩ : ∃ (u : Fin 1) (q : Fin b), j = ix2 u q := ⟨j 0, j 1, eq_ix2 j⟩
  have e1 : shapeCast ⟨2, ![1, b]⟩ x h (ix2 u q) = x (ix1 q) :=
    shapeCast_apply x h _ _ (by
      have hu : u.val = 0 := by omega
      rw [Shape.rowMajor_val_two, Shape.rowMajor_val_one]
      show q.val = u.val * b + q.val
      rw [hu, Nat.zero_mul, Nat.zero_add])
  have e2 : broadcastInDim ⟨2, ![1, b]⟩ ![1] hd x (ix2 u q) = x (ix1 q) :=
    broadcastInDim_apply ![1] hd x (ix2 u q) (ix1 q) (by
      intro ax
      match ax with
      | ⟨0, _⟩ =>
        show q.val = if b = 1 then 0 else q.val
        split
        · have := q.isLt; omega
        · rfl)
  exact e1.trans e2.symm

/-- A column [a, 1] broadcast by the host to [a, b], read at (p, q), is the column at p. -/
theorem broadcastInDim_col_apply {a b : ℕ} (hd : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] hd v (ix2 p q) = v (ix2 p (0 : Fin 1)) := by
  refine broadcastInDim_apply ![0, 1] hd v (ix2 p q) (ix2 p (0 : Fin 1)) ?_
  intro ax
  match ax with
  | ⟨0, _⟩ =>
    show p.val = if a = 1 then 0 else p.val
    split
    · have := p.isLt; omega
    · rfl
  | ⟨1, _⟩ => rfl

end Cert.HostColumns
-- ==== Proof.Bridge.lean ====
/-
  The kernel's function of the argument arrays is the reference's.

  The two programs build the same pieces from the edge list (source and destination vectors, dinv, the edge weights):
  the same operations on the same operands. They differ in three layouts — the kernel casts dinv², the edge weights
  and the bias to a column or a row where the reference broadcasts them along one axis, which gives the same arrays —,
  in the product (the kernel's whole-array product is the host's, by definition of the specification) and in the order
  of one sum: the kernel adds the aggregate to h · dinv², the reference adds h · dinv² to the aggregate. Addition of
  extended reals is commutative, so no finiteness is needed.
-/
import proofs.«154621_j17703855194320_1_alg».proof.Proof.KernelTerm
import proofs.«154621_j17703855194320_1_alg».proof.Proof.RefTerm
import proofs.«154621_j17703855194320_1_alg».proof.Proof.LibHostColumns
import Idealize.ShloMosaic.Lib.KernelVsHost

set_option maxRecDepth 16384

noncomputable section

namespace Cert.Bridge

open Idealize.ShloMosaic Idealize.ShloMosaic.TcCoe Idealize.ShloMosaic.ValueIdx

/-! ## The shared pieces -/

theorem src_eq (e : IVec Cert.KernelIdeal.S2x800000 32) : Cert.KernelIdeal.Term.src e = Cert.ReferenceIdeal.Term.src e := rfl
theorem dst_eq (e : IVec Cert.KernelIdeal.S2x800000 32) : Cert.KernelIdeal.Term.dst e = Cert.ReferenceIdeal.Term.dst e := rfl
theorem wrap_eq (v : IVec Cert.KernelIdeal.S800000 32) : Cert.KernelIdeal.Term.wrap v = Cert.ReferenceIdeal.Term.wrap v := rfl
theorem col_eq (v : IVec Cert.KernelIdeal.S800000 32) : Cert.KernelIdeal.Term.col v = Cert.ReferenceIdeal.Term.col v := rfl
theorem dinv_eq (e : IVec Cert.KernelIdeal.S2x800000 32) : Cert.KernelIdeal.Term.dinv e = Cert.ReferenceIdeal.Term.dinv e := rfl
theorem norm_eq (e : IVec Cert.KernelIdeal.S2x800000 32) : Cert.KernelIdeal.Term.norm e = Cert.ReferenceIdeal.Term.norm e := rfl

/-! ## The three layouts -/

/-- dinv² as a column: the kernel's cast is the reference's broadcast along axis 0. -/
theorem d2col_eq (e : IVec Cert.KernelIdeal.S2x800000 32) : Cert.KernelIdeal.Term.d2col e = Cert.ReferenceIdeal.Term.d2col e := by
  unfold Cert.KernelIdeal.Term.d2col Cert.ReferenceIdeal.Term.d2col
  rw [dinv_eq]
  exact Cert.HostColumns.shapeCast_col_eq_broadcastInDim _ _ _

/-- The edge weights as a column: the kernel's cast is the reference's broadcast along axis 0. -/
theorem normCol_eq (e : IVec Cert.KernelIdeal.S2x800000 32) : Cert.KernelIdeal.Term.normCol e = Cert.ReferenceIdeal.Term.normCol e := by
  unfold Cert.KernelIdeal.Term.normCol Cert.ReferenceIdeal.Term.normCol
  rw [norm_eq]
  exact Cert.HostColumns.shapeCast_col_eq_broadcastInDim _ _ _

theorem normWide_eq (e : IVec Cert.KernelIdeal.S2x800000 32) : Cert.KernelIdeal.Term.normWide e = Cert.ReferenceIdeal.Term.normWide e := by
  unfold Cert.KernelIdeal.Term.normWide Cert.ReferenceIdeal.Term.normWide
  rw [normCol_eq]

/-- The bias as a row: the kernel's cast is the reference's broadcast along axis 1. -/
theorem biasRow_eq (b : FVec Ideal Cert.KernelIdeal.S300 .f32) : Cert.KernelIdeal.Term.biasRow b = Cert.ReferenceIdeal.Term.biasRow b :=
  Cert.HostColumns.shapeCast_row_eq_broadcastInDim _ _ _

theorem agg_eq (e : IVec Cert.KernelIdeal.S2x800000 32) (nrm : FVec Ideal Cert.KernelIdeal.S800000x300 .f32) (h : FVec Ideal Cert.KernelIdeal.S50000x300 .f32) :
    Cert.KernelIdeal.Term.agg e nrm h = Cert.ReferenceIdeal.Term.agg e nrm h := rfl

/-! ## The product and the layer -/

/-- The specification's product is the host's product of the reference, at either contraction length. -/
theorem prod128_eq (x : FVec Ideal Cert.KernelIdeal.S50000x128 .f32) (w : FVec Ideal Cert.KernelIdeal.S128x300 .f32) :
    Cert.Spec.prod x w = Host.dotGeneral (F := Ideal) Cert.ReferenceIdeal.dot_S50000x128_S128x300_S50000x300_1_0_0_1_n_n none x w := rfl
theorem prod300_eq (x : FVec Ideal Cert.KernelIdeal.S50000x300 .f32) (w : FVec Ideal Cert.KernelIdeal.S300x300 .f32) :
    Cert.Spec.prod x w = Host.dotGeneral (F := Ideal) Cert.ReferenceIdeal.dot_S50000x300_S300x300_S50000x300_1_0_0_1_n_n none x w := rfl

/-- One layer, entry by entry: h · d + a + b on the kernel's side, (a + h · d) + b on the reference's. -/
theorem combine_eq (h : FVec Ideal ⟨2, ![50000, 300]⟩ .f32) (d : FVec Ideal ⟨2, ![50000, 1]⟩ .f32)
    (a : FVec Ideal ⟨2, ![50000, 300]⟩ .f32) (b : FVec Ideal ⟨2, ![1, 300]⟩ .f32)
    (hd : (⟨2, ![50000, 1]⟩ : Shape).BroadcastsInDim ⟨2, ![50000, 300]⟩ ![0, 1])
    (hb : (⟨2, ![1, 300]⟩ : Shape).BroadcastsInDim ⟨2, ![50000, 300]⟩ ![0, 1]) :
    Cert.Spec.combine h d a b
      = addf (F := Ideal) (addf (F := Ideal) a (mulf (F := Ideal) h (broadcastInDim ⟨2, ![50000, 300]⟩ ![0, 1] hd d)))
          (broadcastInDim ⟨2, ![50000, 300]⟩ ![0, 1] hb b) := by
  funext i
  obtain ⟨p, q, rfl⟩ : ∃ (p : Fin 50000) (q : Fin 300), i = ix2 p q := ⟨i 0, i 1, eq_ix2 i⟩
  show h (ix2 p q) * d (ix2 p (0 : Fin 1)) + a (ix2 p q) + b (ix2 (0 : Fin 1) q)
    = (a (ix2 p q) + h (ix2 p q) * broadcastInDim ⟨2, ![50000, 300]⟩ ![0, 1] hd d (ix2 p q))
        + broadcastInDim ⟨2, ![50000, 300]⟩ ![0, 1] hb b (ix2 p q)
  rw [Cert.HostColumns.broadcastInDim_col_apply hd d p q, broadcastInDim_oneRow_apply hb b p q,
    add_comm (a (ix2 p q))]

theorem layer_eq (e : IVec Cert.KernelIdeal.S2x800000 32) (h : FVec Ideal Cert.KernelIdeal.S50000x300 .f32) (b : FVec Ideal Cert.KernelIdeal.S300 .f32) :
    Cert.KernelIdeal.Term.layer e h b = Cert.ReferenceIdeal.Term.layer e h b := by
  unfold Cert.KernelIdeal.Term.layer Cert.ReferenceIdeal.Term.layer
  rw [d2col_eq, normWide_eq, agg_eq, biasRow_eq]
  exact combine_eq _ _ _ _ _ _

/-- The two programs compute one function of the argument arrays. -/
theorem out_eq (x : FVec Ideal Cert.KernelIdeal.S50000x128 .f32) (e : IVec Cert.KernelIdeal.S2x800000 32) (w1 : FVec Ideal Cert.KernelIdeal.S128x300 .f32)
    (b1 : FVec Ideal Cert.KernelIdeal.S300 .f32) (w2 : FVec Ideal Cert.KernelIdeal.S300x300 .f32) (b2 : FVec Ideal Cert.KernelIdeal.S300 .f32) :
    Cert.KernelIdeal.Term.out x e w1 b1 w2 b2 = Cert.ReferenceIdeal.Term.out x e w1 b1 w2 b2 := by
  unfold Cert.KernelIdeal.Term.out Cert.ReferenceIdeal.Term.out
  rw [layer_eq, layer_eq, prod128_eq, prod300_eq]

end Cert.Bridge

end
-- ==== Proof.lean ====
/-
  The certificate: a two-layer graph convolution, its dense parts in four tiled kernels, against the plain
  reference.

  Each layer is out = agg + h · dinv² + b with h = x · W, agg the sum over incoming edges of the source's row of h
  scaled by dinv(source) · dinv(destination), and dinv the inverse square root of the degree. The kernel program
  computes h by a row-tiled product (25 blocks of 2000 rows against the whole weight), the aggregate by the same host
  gather and scatter-add as the reference, and the sum by a row-tiled pointwise kernel that adds h · dinv² + agg + b.

  The frames of the two kernel programs are the generated ones; the reference's frame is its generated run with the
  result dropped. The idealization rewrote nothing, so there is nothing to preserve. For the value claim, the
  kernel's result buffer ends at a function of the argument arrays read off the run's boundaries, the reference's at its
  operations' composed term, and the two are one function: the host operations are shared, a cast to a column or row is
  the broadcast along one axis, a tiled product into a zero accumulator is the whole product, and the one sum taken in
  another order commutes on the extended reals.
-/
import proofs.«154621_j17703855194320_1_alg».proof.Defs
import proofs.«154621_j17703855194320_1_alg».proof.Proof.Gen.Kernel
import proofs.«154621_j17703855194320_1_alg».proof.Proof.Gen.Kernel.Skeleton
import proofs.«154621_j17703855194320_1_alg».proof.Proof.Gen.Kernel.Launch
import proofs.«154621_j17703855194320_1_alg».proof.Proof.Gen.Kernel.Points
import proofs.«154621_j17703855194320_1_alg».proof.Proof.Gen.Kernel.Frame
import proofs.«154621_j17703855194320_1_alg».proof.Proof.Gen.KernelIdeal
import proofs.«154621_j17703855194320_1_alg».proof.Proof.Gen.KernelIdeal.Skeleton
import proofs.«154621_j17703855194320_1_alg».proof.Proof.Gen.KernelIdeal.Launch
import proofs.«154621_j17703855194320_1_alg».proof.Proof.Gen.KernelIdeal.Points
import proofs.«154621_j17703855194320_1_alg».proof.Proof.Gen.KernelIdeal.Frame
import proofs.«154621_j17703855194320_1_alg».proof.Proof.Gen.ReferenceIdeal
import proofs.«154621_j17703855194320_1_alg».proof.Proof.Gen.ReferenceIdeal.Run
import proofs.«154621_j17703855194320_1_alg».proof.Proof.Gen.Pre_finite_inputs
import proofs.«154621_j17703855194320_1_alg».proof.Proof.KernelRun
import proofs.«154621_j17703855194320_1_alg».proof.Proof.KernelWalk
import proofs.«154621_j17703855194320_1_alg».proof.Proof.RefTerm
import proofs.«154621_j17703855194320_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result buffer at one function of the (agreeing) argument arrays. -/
theorem algebraic : Cert.algebraic_KernelIdeal_ReferenceIdeal := by
  intro m ρ m' ρ' _ hagree
  refine ⟨fun c => Cert.KernelIdeal.Term.out (Cert.KernelIdeal.Walk.a0 m c) (Cert.KernelIdeal.Walk.a1 m c)
    (Cert.KernelIdeal.Walk.a2 m c) (Cert.KernelIdeal.Walk.a3 m c) (Cert.KernelIdeal.Walk.a4 m c)
    (Cert.KernelIdeal.Walk.a5 m c), ?_, ?_⟩
  · exact (θ_run Cert.KernelIdeal.defs _ _).mono
      (fun r h c => ⟨(h c).1.trans (Cert.KernelIdeal.Walk.W7_v58 m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Term.res_eq, (hagree c).1, (hagree c).2.1, (hagree c).2.2.1, (hagree c).2.2.2.1,
      (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
